-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S10000x64 : Shape := ⟨2, ![10000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S10000x32 : Shape := ⟨2, ![10000, 32]⟩
abbrev S1600000x32 : Shape := ⟨2, ![1600000, 32]⟩
abbrev S1x32 : Shape := ⟨2, ![1, 32]⟩

abbrev nBuf : Space → Nat
  | .hbm => 135
  | .vmem => 10
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x32, .f32⟩
  | 5 => ⟨S32, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S_, .f32⟩
  | 12 => ⟨S100000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S_, .f32⟩
  | 22 => ⟨S1600000, .f32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x32, .f32⟩
  | 75 => ⟨S_, .f32⟩
  | 76 => ⟨S100000, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S_, .f32⟩
  | 86 => ⟨S1600000, .f32⟩
  | 87 => ⟨S100000, .f32⟩
  | 88 => ⟨S_, .f32⟩
  | 89 => ⟨S100000, .f32⟩
  | 90 => ⟨S100000, .f32⟩
  | 91 => ⟨S100000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S1600000, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x32, .f32⟩
  | 120 => ⟨S1600000x1, .f32⟩
  | 121 => ⟨S1600000x32, .f32⟩
  | 122 => ⟨S1600000x32, .f32⟩
  | 123 => ⟨S_, .f32⟩
  | 124 => ⟨S100000x32, .f32⟩
  | 125 => ⟨S1600000x1, .i32⟩
  | 126 => ⟨S100000x32, .f32⟩
  | 127 => ⟨S100000, .f32⟩
  | _ => ⟨S100000x64, .f32⟩

abbrev hbmTy0_1 (i : Nat) : BufTy := match i % 128 with
  | 0 => ⟨S100000x1, .f32⟩
  | 1 => ⟨S100000x32, .f32⟩
  | 2 => ⟨S100000x32, .f32⟩
  | 3 => ⟨S100000x32, .f32⟩
  | 4 => ⟨S1x32, .f32⟩
  | 5 => ⟨S100000x32, .f32⟩
  | 6 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S10000x64_S64x64_S10000x64_1_0_0_1_n_n_wf : DotDims.WF S10000x64 S64x64 S10000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 135
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x32, .f32⟩
  | 5 => ⟨S32, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S_, .f32⟩
  | 12 => ⟨S100000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S_, .f32⟩
  | 22 => ⟨S1600000, .f32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x32, .f32⟩
  | 75 => ⟨S_, .f32⟩
  | 76 => ⟨S100000, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S_, .f32⟩
  | 86 => ⟨S1600000, .f32⟩
  | 87 => ⟨S100000, .f32⟩
  | 88 => ⟨S_, .f32⟩
  | 89 => ⟨S100000, .f32⟩
  | 90 => ⟨S100000, .f32⟩
  | 91 => ⟨S100000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S1600000, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x32, .f32⟩
  | 120 => ⟨S1600000x1, .f32⟩
  | 121 => ⟨S1600000x32, .f32⟩
  | 122 => ⟨S1600000x32, .f32⟩
  | 123 => ⟨S_, .f32⟩
  | 124 => ⟨S100000x32, .f32⟩
  | 125 => ⟨S1600000x1, .i32⟩
  | 126 => ⟨S100000x32, .f32⟩
  | 127 => ⟨S100000, .f32⟩
  | _ => ⟨S100000x64, .f32⟩

abbrev hbmTy0_1 (i : Nat) : BufTy := match i % 128 with
  | 0 => ⟨S100000x1, .f32⟩
  | 1 => ⟨S100000x32, .f32⟩
  | 2 => ⟨S100000x32, .f32⟩
  | 3 => ⟨S100000x32, .f32⟩
  | 4 => ⟨S1x32, .f32⟩
  | 5 => ⟨S100000x32, .f32⟩
  | 6 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Product.lean ====
/-
  The product of an M×K array with a K×N array over the extended reals, as one function of the output index:
  entry (p, q) is the sum over κ of x (p, κ) * w (κ, q).

  Both ways the two programs compute a dense layer reduce to it: the accelerator's matmul of the operands (after a change
  of float format, which is the identity on the extended reals) into a zero accumulator, and the host's dot_general.
-/
import proofs.«160054_j18408229830960_1_alg».proof.Proof.LibPlainDot

noncomputable section

open scoped BigOperators

namespace Cert.Product
open Idealize.ShloMosaic Idealize.ShloMosaic.ValueIdx Idealize.ShloMosaic.PlainDot

/-- The matrix product: entry (p, q) is the sum over κ of x (p, κ) * w (κ, q). -/
def mm {M K N : Nat} {φ₁ φ₂ : FTy} (x : FVec Ideal ⟨2, ![M, K]⟩ φ₁) (w : FVec Ideal ⟨2, ![K, N]⟩ φ₂) :
    FVec Ideal ⟨2, ![M, N]⟩ .f32 :=
  fun i => ∑ κ : Fin K, x (ix2 (i 0) κ) * w (ix2 κ (i 1))

/-- The product at a pair of coordinates. -/
theorem mm_ix2 {M K N : Nat} {φ₁ φ₂ : FTy} (x : FVec Ideal ⟨2, ![M, K]⟩ φ₁) (w : FVec Ideal ⟨2, ![K, N]⟩ φ₂)
    (p : Fin M) (q : Fin N) : mm x w (ix2 p q) = ∑ κ : Fin K, x (ix2 p κ) * w (ix2 κ q) := rfl

/-- The accelerator's matmul into the zero accumulator is the matrix product. -/
theorem matmul_zero_eq_mm {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) :
    FloatOps.matmul d prec l r (constant ⟨2, ![M, N]⟩ .f32 0x00000000#32) = mm l r := by
  funext j
  obtain ⟨p, q, rfl⟩ : ∃ (p : Fin M) (q : Fin N), j = ix2 p q := ⟨j 0, j 1, eq_ix2 j⟩
  exact (matmul_zero_plain d hd prec l r p q).trans (mm_ix2 l r p q).symm

/-- The host's dot_general is the matrix product. -/
theorem dotGeneral_eq_mm {M K N : Nat} {φ₁ φ₂ : FTy} (d : DotDims ⟨2, ![M, K]⟩ ⟨2, ![K, N]⟩ ⟨2, ![M, N]⟩) (hd : IsPlain d)
    (prec : Option ContractPrecision) (sched : HostSchedule) (l : FVec Ideal ⟨2, ![M, K]⟩ φ₁) (r : FVec Ideal ⟨2, ![K, N]⟩ φ₂) :
    FloatOps.dotGeneral d prec sched l r = mm l r := by
  funext j
  obtain ⟨p, q, rfl⟩ : ∃ (p : Fin M) (q : Fin N), j = ix2 p q := ⟨j 0, j 1, eq_ix2 j⟩
  exact (dotGeneral_plain d hd prec sched l r p q).trans (mm_ix2 l r p q).symm

/-- A row block of the product: if a block of rows x0 of x is read at row offset r0 (x0 (p, κ) = x (r0 + p, κ)), the
    product of the block with w is the block of the product at the same rows. -/
theorem mm_rows {M B K N : Nat} {φ₁ φ₂ : FTy} (x : FVec Ideal ⟨2, ![M, K]⟩ φ₁) (x0 : FVec Ideal ⟨2, ![B, K]⟩ φ₁)
    (w w0 : FVec Ideal ⟨2, ![K, N]⟩ φ₂) (p : Fin B) (q : Fin N) (i : (⟨2, ![M, N]⟩ : Shape).Idx)
    (hx : ∀ κ : Fin K, x0 (ix2 p κ) = x (ix2 (i 0) κ)) (hw : ∀ κ : Fin K, w0 (ix2 κ q) = w (ix2 κ (i 1))) :
    mm x0 w0 (ix2 p q) = mm x w i := by
  rw [mm_ix2]
  exact Finset.sum_congr rfl fun κ _ => by rw [hx κ, hw κ]

end Cert.Product

end
-- ==== Proof.RegionValue.lean ====
/-
  What each of the two kernel regions leaves in its output array, on the extended reals: the matrix product of the
  region's left array (100000 × 64) with its weights (64 × 64, then 64 × 32).

  A region runs ten grid points; point t loads rows 10000 t ... 10000 t + 9999 of the left array and all of the
  weights, multiplies them on the matrix unit into a zero accumulator, and writes the 10000 × N block back to the same
  rows of the output. A row block of a product is the product of the row block, and the ten blocks tile the output.
-/
import proofs.«160054_j18408229830960_1_alg».proof.Proof.Gen.KernelIdeal.Frame
import proofs.«160054_j18408229830960_1_alg».proof.Proof.Product
import Idealize.ShloMosaic.Lib.Pipeline.Value

set_option maxRecDepth 16384

noncomputable section

namespace Cert.KernelIdeal.RegionValue

open Cert.KernelIdeal Cert.KernelIdeal.Gen Cert.Product
open Idealize.ShloMosaic Idealize.ShloMosaic.TcCoe Idealize.ShloMosaic.ValueIdx Idealize.ShloMosaic.PlainDot
open Idealize.SL Idealize.SL.Sem
open Idealize.ShloMosaic.Pipeline (Dat Cfg Window)

-- the arrays as a region finds them
variable (V : (c : Dev nD) → (b : Ref sig .tc) → Buf (Elt Ideal) ((c : Thread nD τ).loc b))

theorem hz : (![0, 0] : Fin 2 → Nat) = fun _ => 0 := funext fun a => by fin_cases a <;> rfl

/-! ## Region 0: the product of main_arg0 with main_arg2, ten blocks of ten thousand rows -/

/-- The region's matmul has plain dimension numbers. -/
theorem plain0 : IsPlain dot_S10000x64_S64x64_S10000x64_1_0_0_1_n_n := ⟨rfl, rfl, rfl, rfl, rfl, rfl⟩

/-- The body's payload is the product of its two loaded blocks: the change of float format is the identity on the
    extended reals, and the accumulator is zero. -/
theorem pay0_eq (x0 : Vec Ideal S10000x64 .f32) (x1 : Vec Ideal S64x64 .f32) :
    k0_pay1 x0 x1 = mm (M := 10000) (K := 64) (N := 64) (φ₁ := .f32) (φ₂ := .f32) x0 x1 := by
  unfold k0_pay1
  exact (matmul_zero_eq_mm _ plain0 none _ _).trans rfl

/-- The printed index maps over the grid: the left operand's and the output's block of rows is the point's number, every
    column block is block 0, and the weights' one block is block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region finds them: rows
    10000 t ... 10000 t + 9999 of the product depend on the same rows of the left array and on all of the weights. -/
theorem flushed0 (c : Dev nD) (t : Fin cfg0.N) :
    (dat0 V c).flushed 2 t = ((cfg0.win 2).blk t).view.read (Elt Ideal)
      (mm (M := 100000) (K := 64) (N := 64) (φ₁ := .f32) (φ₂ := .f32) (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  rw [pay0_eq]
  obtain ⟨e0, e1, e2, e3, e4, e5⟩ := idx_facts0 t
  funext j
  obtain ⟨p, q, rfl⟩ : ∃ (p : Fin 10000) (q : Fin 64), j = ix2 p q := ⟨j 0, j 1, eq_ix2 j⟩
  show mm (M := 10000) (K := 64) (N := 64) (φ₁ := .f32) (φ₂ := .f32) (iblk0 V c 0 t) (iblk0 V c 1 t) (ix2 p q)
    = mm (M := 100000) (K := 64) (N := 64) (φ₁ := .f32) (φ₂ := .f32) (V c main_arg0) (V c main_arg2) (((cfg0.win 2).blk t).view.emb (ix2 p q))
  refine mm_rows (M := 100000) (B := 10000) (K := 64) (N := 64) (φ₁ := .f32) (φ₂ := .f32) (V c main_arg0) (iblk0 V c 0 t)
    (V c main_arg2) (iblk0 V c 1 t) p q _ (fun κ => ?_) (fun κ => ?_)
  · show V c main_arg0 (((cfg0.win 0).blk t).view.emb (ix2 p κ)) = V c main_arg0 _
    refine congrArg (V c main_arg0) ?_
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * κ.val = κ.val; omega
  · show V c main_arg2 (((cfg0.win 1).blk t).view.emb (ix2 κ q)) = V c main_arg2 _
    refine congrArg (V c main_arg2) ?_
    funext a; apply Fin.ext
    match a with
    | ⟨0, _⟩ => show win0_1.index t (0 : Fin 2) * 64 + 1 * κ.val = κ.val; omega
    | ⟨1, _⟩ => show win0_1.index t (1 : Fin 2) * 64 + 1 * q.val = win0_2.index t (1 : Fin 2) * 64 + 1 * q.val; omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- Row r of the output array is written back by point r / 10000: the ten blocks tile the array. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < cfg0.N := lt_of_lt_of_eq (by omega : (i 0).val / 10000 < 10) N_0.symm
  obtain ⟨e0, e1, e2, e3, e4, e5⟩ := idx_facts0 ⟨(i 0).val / 10000, hN⟩
  have e4' : win0_2.index ⟨(i 0).val / 10000, hN⟩ (0 : Fin 2) = (i 0).val / 10000 := e4
  refine ⟨⟨(i 0).val / 10000, hN⟩, flush0_2 _, ?_⟩
  rw [mem_blk0]
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; omega
  | ⟨1, _⟩ => show win0_2.index ⟨(i 0).val / 10000, hN⟩ (1 : Fin 2) * 64 ≤ (i 1).val ∧ (i 1).val < win0_2.index ⟨(i 0).val / 10000, hN⟩ (1 : Fin 2) * 64 + 64; omega

/-- The output array after the region: the product of the left array with the weights, as the region finds them. -/
theorem array0 (c : Dev nD) :
    (dat0 V c).arrAt 2 cfg0.N = mm (M := 100000) (K := 64) (N := 64) (φ₁ := .f32) (φ₂ := .f32) (V c main_arg0) (V c main_arg2) :=
  (dat0 V c).arrAt_eq_of_cover 2 _ (fun t _ => flushed0 V c t) (cover0)

/-! ## Region 1: the product of main_v53 with main_arg4, ten blocks of ten thousand rows -/

/-- The region's matmul has plain dimension numbers. -/
theorem plain1 : IsPlain dot_S10000x64_S64x32_S10000x32_1_0_0_1_n_n := ⟨rfl, rfl, rfl, rfl, rfl, rfl⟩

/-- The body's payload is the product of its two loaded blocks: the cast of the left block to its own shape and the change
    of float format are the identity on the extended reals, and the accumulator is zero. -/
theorem pay1_eq (x0 : Vec Ideal S10000x64 .f32) (x1 : Vec Ideal S64x32 .f32) :
    k1_pay1 x0 x1 = mm (M := 10000) (K := 64) (N := 32) (φ₁ := .f32) (φ₂ := .f32) x0 x1 := by
  unfold k1_pay1
  refine (matmul_zero_eq_mm _ plain1 none _ _).trans ?_
  rw [shapeCast_self]
  rfl

/-- The printed index maps over the grid: the left operand's and the output's block of rows is the point's number, every
    column block is block 0, and the weights' one block is block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the two arrays as the region finds them: rows
    10000 t ... 10000 t + 9999 of the product depend on the same rows of the left array and on all of the weights. -/
theorem flushed1 (c : Dev nD) (t : Fin cfg1.N) :
    (dat1 V c).flushed 2 t = ((cfg1.win 2).blk t).view.read (Elt Ideal)
      (mm (M := 100000) (K := 64) (N := 32) (φ₁ := .f32) (φ₂ := .f32) (V c main_v53) (V c main_arg4)) := by
  show (cfg1.win 2).cut (grid1.coords t) ((dat1 V c).after 2 t) = _
  rw [after1_2]
  unfold out1_2
  rw [View.canon_unit_zero hz]
  simp only [View.ld_unit_zero (S := S10000x64) hz, View.ld_unit_zero (S := S64x32) hz]
  rw [pay1_eq]
  obtain ⟨e0, e1, e2, e3, e4, e5⟩ := idx_facts1 t
  funext j
  obtain ⟨p, q, rfl⟩ : ∃ (p : Fin 10000) (q : Fin 32), j = ix2 p q := ⟨j 0, j 1, eq_ix2 j⟩
  show mm (M := 10000) (K := 64) (N := 32) (φ₁ := .f32) (φ₂ := .f32) (iblk1 V c 0 t) (iblk1 V c 1 t) (ix2 p q)
    = mm (M := 100000) (K := 64) (N := 32) (φ₁ := .f32) (φ₂ := .f32) (V c main_v53) (V c main_arg4) (((cfg1.win 2).blk t).view.emb (ix2 p q))
  refine mm_rows (M := 100000) (B := 10000) (K := 64) (N := 32) (φ₁ := .f32) (φ₂ := .f32) (V c main_v53) (iblk1 V c 0 t)
    (V c main_arg4) (iblk1 V c 1 t) p q _ (fun κ => ?_) (fun κ => ?_)
  · show V c main_v53 (((cfg1.win 0).blk t).view.emb (ix2 p κ)) = V c main_v53 _
    refine congrArg (V c main_v53) ?_
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * κ.val = κ.val; omega
  · show V c main_arg4 (((cfg1.win 1).blk t).view.emb (ix2 κ q)) = V c main_arg4 _
    refine congrArg (V c main_arg4) ?_
    funext a; apply Fin.ext
    match a with
    | ⟨0, _⟩ => show win1_1.index t (0 : Fin 2) * 64 + 1 * κ.val = κ.val; omega
    | ⟨1, _⟩ => show win1_1.index t (1 : Fin 2) * 32 + 1 * q.val = win1_2.index t (1 : Fin 2) * 32 + 1 * q.val; omega

/-- An index of the output array is in point t's block iff each coordinate is in the block's range on its axis. -/
theorem mem_blk1 (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v54).slice (win1_2.rect t)).set ↔ _
  rw [View.set_slice_whole, Rect.mem_set_unit]
  exact Iff.rfl

/-- Row r of the output array is written back by point r / 10000: the ten blocks tile the array. -/
theorem cover1 (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : (i 0).val / 10000 < cfg1.N := lt_of_lt_of_eq (by omega : (i 0).val / 10000 < 10) N_1.symm
  obtain ⟨e0, e1, e2, e3, e4, e5⟩ := idx_facts1 ⟨(i 0).val / 10000, hN⟩
  have e4' : win1_2.index ⟨(i 0).val / 10000, hN⟩ (0 : Fin 2) = (i 0).val / 10000 := e4
  refine ⟨⟨(i 0).val / 10000, hN⟩, flush1_2 _, ?_⟩
  rw [mem_blk1]
  intro a
  match a with
  | ⟨0, _⟩ => show win1_2.index ⟨(i 0).val / 10000, hN⟩ (0 : Fin 2) * 10000 ≤ (i 0).val ∧ (i 0).val < win1_2.index ⟨(i 0).val / 10000, hN⟩ (0 : Fin 2) * 10000 + 10000; omega
  | ⟨1, _⟩ => show win1_2.index ⟨(i 0).val / 10000, hN⟩ (1 : Fin 2) * 32 ≤ (i 1).val ∧ (i 1).val < win1_2.index ⟨(i 0).val / 10000, hN⟩ (1 : Fin 2) * 32 + 32; omega

/-- The output array after the region: the product of the left array with the weights, as the region finds them. -/
theorem array1 (c : Dev nD) :
    (dat1 V c).arrAt 2 cfg1.N = mm (M := 100000) (K := 64) (N := 32) (φ₁ := .f32) (φ₂ := .f32) (V c main_v53) (V c main_arg4) :=
  (dat1 V c).arrAt_eq_of_cover 2 _ (fun t _ => flushed1 V c t) (cover1)

end Cert.KernelIdeal.RegionValue

end
-- ==== Proof.KernelFold.lean ====
/-
  The contents of the idealized kernel program's buffers at the boundaries of its segments, as functions of the launch
  contents of the six arguments — the same functions, stage by stage, that the idealized reference computes.

  @main is: four host operations (the two rows of edge_index as source and destination node lists), the first region
  (x · W1), sixty host operations (the in-degree count, its inverse square root, the normalised gather–scatter of
  messages, the self-loop term and the bias), a relu, the second region (h · W2), and the same sixty operations again
  on the second layer. The reference runs the very same host operations, with a dot_general where the kernel program
  has a region. Both a region's output and a dot_general are the matrix product of their operands, so at every
  boundary the kernel program's buffers hold the reference's stage values.
-/
import proofs.«160054_j18408229830960_1_alg».proof.Proof.Gen.KernelIdeal.Frame
import proofs.«160054_j18408229830960_1_alg».proof.Proof.Gen.ReferenceIdeal.Read
import proofs.«160054_j18408229830960_1_alg».proof.Proof.RegionValue
import Idealize.ShloMosaic.Lib.StableHlo.Run

set_option maxRecDepth 16384

noncomputable section

namespace Cert.KernelIdeal.Fold

open Cert.KernelIdeal Cert.KernelIdeal.Gen Cert.Product Cert.KernelIdeal.RegionValue
open Idealize.ShloMosaic Idealize.ShloMosaic.TcCoe Idealize.ShloMosaic.StableHlo Idealize.ShloMosaic.PlainDot
open Idealize.SL Idealize.SL.Sem

variable (m : (ℓ : Loc nD τ sig) → Buf (Elt Ideal) ℓ) (ρ : Dev nD → PrngReg)

-- the launch contents of the six arguments on core c
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)

/-! ## The reference's two dot_generals are matrix products -/

theorem plainR0 : IsPlain Cert.ReferenceIdeal.dot_S100000x64_S64x64_S100000x64_1_0_0_1_n_n := ⟨rfl, rfl, rfl, rfl, rfl, rfl⟩
theorem plainR1 : IsPlain Cert.ReferenceIdeal.dot_S100000x64_S64x32_S100000x32_1_0_0_1_n_n := ⟨rfl, rfl, rfl, rfl, rfl, rfl⟩

/-! ## After the first four host operations: the source and destination node lists -/

theorem W1_v1 (c : Dev nD) : W1 m ρ c (Proc.devRef .tc main_v1) = Cert.ReferenceIdeal.Read.val_main_v1 (F := Ideal) (x1 m c) := by
  show StableHlo.after hostOps0 (W0 m ρ c) (Proc.devRef .tc main_v1) = _
  after_results
  rfl
theorem W1_v3 (c : Dev nD) : W1 m ρ c (Proc.devRef .tc main_v3) = Cert.ReferenceIdeal.Read.val_main_v3 (F := Ideal) (x1 m c) := by
  show StableHlo.after hostOps0 (W0 m ρ c) (Proc.devRef .tc main_v3) = _
  after_results
  rfl
theorem W1_arg0 (c : Dev nD) : W1 m ρ c (Proc.devRef .tc main_arg0) = x0 m c := by
  show StableHlo.after hostOps0 (W0 m ρ c) (Proc.devRef .tc main_arg0) = _
  after_results
theorem W1_arg2 (c : Dev nD) : W1 m ρ c (Proc.devRef .tc main_arg2) = x2 m c := by
  show StableHlo.after hostOps0 (W0 m ρ c) (Proc.devRef .tc main_arg2) = _
  after_results
theorem W1_arg3 (c : Dev nD) : W1 m ρ c (Proc.devRef .tc main_arg3) = x3 m c := by
  show StableHlo.after hostOps0 (W0 m ρ c) (Proc.devRef .tc main_arg3) = _
  after_results
theorem W1_arg4 (c : Dev nD) : W1 m ρ c (Proc.devRef .tc main_arg4) = x4 m c := by
  show StableHlo.after hostOps0 (W0 m ρ c) (Proc.devRef .tc main_arg4) = _
  after_results
theorem W1_arg5 (c : Dev nD) : W1 m ρ c (Proc.devRef .tc main_arg5) = x5 m c := by
  show StableHlo.after hostOps0 (W0 m ρ c) (Proc.devRef .tc main_arg5) = _
  after_results

/-! ## After the first region: x · W1 in its output array, every other buffer as before -/

theorem W2_v4 (c : Dev nD) : W2 m ρ c (Proc.devRef .tc main_v4) = Cert.ReferenceIdeal.Read.val_main_v4 (F := Ideal) (x0 m c) (x2 m c) := by
  refine (W2_arr m ρ c 2).trans ((array0 (V1 m ρ) c).trans ?_)
  show mm (M := 100000) (K := 64) (N := 64) (φ₁ := .f32) (φ₂ := .f32) (W1 m ρ c (Proc.devRef .tc main_arg0)) (W1 m ρ c (Proc.devRef .tc main_arg2)) = _
  rw [W1_arg0, W1_arg2]
  exact (dotGeneral_eq_mm _ plainR0 none .single _ _).symm
theorem W2_v1 (c : Dev nD) : W2 m ρ c (Proc.devRef .tc main_v1) = Cert.ReferenceIdeal.Read.val_main_v1 (F := Ideal) (x1 m c) :=
  (W2_of_ne m ρ c main_v1 (by decide)).trans (W1_v1 m ρ c)
theorem W2_v3 (c : Dev nD) : W2 m ρ c (Proc.devRef .tc main_v3) = Cert.ReferenceIdeal.Read.val_main_v3 (F := Ideal) (x1 m c) :=
  (W2_of_ne m ρ c main_v3 (by decide)).trans (W1_v3 m ρ c)
theorem W2_arg3 (c : Dev nD) : W2 m ρ c (Proc.devRef .tc main_arg3) = x3 m c :=
  (W2_of_ne m ρ c main_arg3 (by decide)).trans (W1_arg3 m ρ c)
theorem W2_arg4 (c : Dev nD) : W2 m ρ c (Proc.devRef .tc main_arg4) = x4 m c :=
  (W2_of_ne m ρ c main_arg4 (by decide)).trans (W1_arg4 m ρ c)
theorem W2_arg5 (c : Dev nD) : W2 m ρ c (Proc.devRef .tc main_arg5) = x5 m c :=
  (W2_of_ne m ρ c main_arg5 (by decide)).trans (W1_arg5 m ρ c)

/-! ## After the sixty host operations of the first layer -/

theorem W3_v52 (c : Dev nD) :
    W3 m ρ c (Proc.devRef .tc main_v52) = Cert.ReferenceIdeal.Read.val_main_v52 (F := Ideal) (x0 m c) (x1 m c) (x2 m c) (x3 m c) := by
  show StableHlo.after hostOps1 (W2 m ρ c) (Proc.devRef .tc main_v52) = _
  after_results_simp
  rw [W2_v4, W2_v1, W2_v3, W2_arg3]
  rfl
theorem W3_v1 (c : Dev nD) : W3 m ρ c (Proc.devRef .tc main_v1) = Cert.ReferenceIdeal.Read.val_main_v1 (F := Ideal) (x1 m c) := by
  show StableHlo.after hostOps1 (W2 m ρ c) (Proc.devRef .tc main_v1) = _
  after_results_simp
  exact W2_v1 m ρ c
theorem W3_v3 (c : Dev nD) : W3 m ρ c (Proc.devRef .tc main_v3) = Cert.ReferenceIdeal.Read.val_main_v3 (F := Ideal) (x1 m c) := by
  show StableHlo.after hostOps1 (W2 m ρ c) (Proc.devRef .tc main_v3) = _
  after_results_simp
  exact W2_v3 m ρ c
theorem W3_arg4 (c : Dev nD) : W3 m ρ c (Proc.devRef .tc main_arg4) = x4 m c := by
  show StableHlo.after hostOps1 (W2 m ρ c) (Proc.devRef .tc main_arg4) = _
  after_results_simp
  exact W2_arg4 m ρ c
theorem W3_arg5 (c : Dev nD) : W3 m ρ c (Proc.devRef .tc main_arg5) = x5 m c := by
  show StableHlo.after hostOps1 (W2 m ρ c) (Proc.devRef .tc main_arg5) = _
  after_results_simp
  exact W2_arg5 m ρ c

/-! ## After the relu -/

/-- The relu's three operations, from any contents: the maximum of the buffer it reads with the zero array. -/
theorem relu_stage (Wv : Valuation τ sig (Elt Ideal)) :
    StableHlo.after hostOps1_1 Wv (Proc.devRef .tc main_v53)
      = maximumf (F := Ideal) (Wv (Proc.devRef .tc main_v52) : FVec Ideal S100000x64 .f32)
          (broadcastInDim S100000x64 ![] bcast_S_S100000x64 (constant (F := Ideal) S_ .f32 0x00000000#32)) := by
  after_results
  rfl
/-- The relu writes neither node list nor an argument. -/
theorem relu_keeps_v1 (Wv : Valuation τ sig (Elt Ideal)) :
    StableHlo.after hostOps1_1 Wv (Proc.devRef .tc main_v1) = Wv (Proc.devRef .tc main_v1) := by
  after_results <;> rfl
theorem relu_keeps_v3 (Wv : Valuation τ sig (Elt Ideal)) :
    StableHlo.after hostOps1_1 Wv (Proc.devRef .tc main_v3) = Wv (Proc.devRef .tc main_v3) := by
  after_results <;> rfl
theorem relu_keeps_arg4 (Wv : Valuation τ sig (Elt Ideal)) :
    StableHlo.after hostOps1_1 Wv (Proc.devRef .tc main_arg4) = Wv (Proc.devRef .tc main_arg4) := by
  after_results <;> rfl
theorem relu_keeps_arg5 (Wv : Valuation τ sig (Elt Ideal)) :
    StableHlo.after hostOps1_1 Wv (Proc.devRef .tc main_arg5) = Wv (Proc.devRef .tc main_arg5) := by
  after_results <;> rfl

theorem W4_v53 (c : Dev nD) :
    W4 m ρ c (Proc.devRef .tc main_v53) = Cert.ReferenceIdeal.Read.val_main_v53 (F := Ideal) (x0 m c) (x1 m c) (x2 m c) (x3 m c) := by
  refine (relu_stage (W3 m ρ c)).trans ?_
  rw [W3_v52]
  rfl
theorem W4_v1 (c : Dev nD) : W4 m ρ c (Proc.devRef .tc main_v1) = Cert.ReferenceIdeal.Read.val_main_v1 (F := Ideal) (x1 m c) :=
  (relu_keeps_v1 (W3 m ρ c)).trans (W3_v1 m ρ c)
theorem W4_v3 (c : Dev nD) : W4 m ρ c (Proc.devRef .tc main_v3) = Cert.ReferenceIdeal.Read.val_main_v3 (F := Ideal) (x1 m c) :=
  (relu_keeps_v3 (W3 m ρ c)).trans (W3_v3 m ρ c)
theorem W4_arg4 (c : Dev nD) : W4 m ρ c (Proc.devRef .tc main_arg4) = x4 m c :=
  (relu_keeps_arg4 (W3 m ρ c)).trans (W3_arg4 m ρ c)
theorem W4_arg5 (c : Dev nD) : W4 m ρ c (Proc.devRef .tc main_arg5) = x5 m c :=
  (relu_keeps_arg5 (W3 m ρ c)).trans (W3_arg5 m ρ c)

/-! ## After the second region: h · W2 in its output array -/

theorem W5_v54 (c : Dev nD) :
    W5 m ρ c (Proc.devRef .tc main_v54) = Cert.ReferenceIdeal.Read.val_main_v54 (F := Ideal) (x0 m c) (x1 m c) (x2 m c) (x3 m c) (x4 m c) := by
  refine (W5_arr m ρ c 2).trans ((array1 (V4 m ρ) c).trans ?_)
  show mm (M := 100000) (K := 64) (N := 32) (φ₁ := .f32) (φ₂ := .f32) (W4 m ρ c (Proc.devRef .tc main_v53)) (W4 m ρ c (Proc.devRef .tc main_arg4)) = _
  rw [W4_v53, W4_arg4]
  exact (dotGeneral_eq_mm _ plainR1 none .single _ _).symm
theorem W5_v1 (c : Dev nD) : W5 m ρ c (Proc.devRef .tc main_v1) = Cert.ReferenceIdeal.Read.val_main_v1 (F := Ideal) (x1 m c) :=
  (W5_of_ne m ρ c main_v1 (by decide)).trans (W4_v1 m ρ c)
theorem W5_v3 (c : Dev nD) : W5 m ρ c (Proc.devRef .tc main_v3) = Cert.ReferenceIdeal.Read.val_main_v3 (F := Ideal) (x1 m c) :=
  (W5_of_ne m ρ c main_v3 (by decide)).trans (W4_v3 m ρ c)
theorem W5_arg5 (c : Dev nD) : W5 m ρ c (Proc.devRef .tc main_arg5) = x5 m c :=
  (W5_of_ne m ρ c main_arg5 (by decide)).trans (W4_arg5 m ρ c)

/-! ## After the sixty host operations of the second layer: the result -/

theorem W6_v102 (c : Dev nD) :
    W6 m ρ c (Proc.devRef .tc main_v102)
      = Cert.ReferenceIdeal.Read.val_main_v102 (F := Ideal) (x0 m c) (x1 m c) (x2 m c) (x3 m c) (x4 m c) (x5 m c) := by
  show StableHlo.after hostOps2 (W5 m ρ c) (Proc.devRef .tc main_v102) = _
  after_results_simp
  rw [W5_v54, W5_v1, W5_v3, W5_arg5]
  rfl

end Cert.KernelIdeal.Fold

end
-- ==== Proof.lean ====
/-
  A two-layer graph convolution, out = Â · relu(Â · (x W1) + b1) W2 + b2 with Â the symmetrically normalised adjacency
  with self loops: the kernel program computes the two dense products x W1 and h W2 on the matrix unit, block of ten
  thousand rows by block, with the operands rounded to bf16 on the way in; the reference computes them by dot_general.
  Everything else — the in-degree count by scatter-add, its inverse square root, the gather of source rows, the
  scaling by the edge coefficient, the scatter-add into destination rows, the self-loop term, the bias, the relu — is
  the same sequence of host operations in both programs.

  On the extended reals a change of float format is the identity and both a matmul into a zero accumulator and a
  dot_general are the sum over κ of l (p, κ) * r (κ, q) (Proof/Product.lean); a row block of a product is the product
  of the row block, and the ten blocks tile the output (Proof/RegionValue.lean). So at every boundary between segments
  the kernel program's buffers hold exactly the reference's stage values of the six arguments (Proof/KernelFold.lean),
  and the two results are one function of the arguments. No algebraic law beyond the reindexing of the contraction is
  used, so finiteness of the inputs is never needed. The ideal pass rewrote nothing, so preserves is trivial.

  The kernel programs' frames are the generated ones; the reference's frame is its generated run with the result
  dropped; the kernel program's run with its result named is the generated launch called again (Proof/KernelRun.lean).
-/
import proofs.«160054_j18408229830960_1_alg».proof.Defs
import proofs.«160054_j18408229830960_1_alg».proof.Proof.Gen.Kernel
import proofs.«160054_j18408229830960_1_alg».proof.Proof.Gen.Kernel.Frame
import proofs.«160054_j18408229830960_1_alg».proof.Proof.Gen.KernelIdeal
import proofs.«160054_j18408229830960_1_alg».proof.Proof.Gen.KernelIdeal.Frame
import proofs.«160054_j18408229830960_1_alg».proof.Proof.Gen.ReferenceIdeal
import proofs.«160054_j18408229830960_1_alg».proof.Proof.Gen.ReferenceIdeal.Run
import proofs.«160054_j18408229830960_1_alg».proof.Proof.Gen.ReferenceIdeal.Read
import proofs.«160054_j18408229830960_1_alg».proof.Proof.Gen.Pre_finite_inputs
import proofs.«160054_j18408229830960_1_alg».proof.Proof.KernelRun
import proofs.«160054_j18408229830960_1_alg».proof.Proof.KernelFold
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the reference's last stage of the arguments: the kernel program by the
    fold of its segments, the reference by its run, from memories that agree on the arguments. -/
theorem algebraic : Cert.algebraic_KernelIdeal_ReferenceIdeal := by
  intro m ρ m' ρ' _ hagree
  refine ⟨fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.W6_v102 m ρ c), (h c).2⟩)
      (Cert.KernelIdeal.Launched.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v102_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
